-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel

variable [Facts]

def fn {F : FTy → Type} [FloatOps F] (main_arg0 : FVec F S32x2048 .f32) (main_arg1 : IVec S32x2048 32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  main_v3
-- ==== Kernel.lean ====
abbrev S32x2048 : Shape := ⟨2, ![32, 2048]⟩
abbrev S1x1 : Shape := ⟨2, ![1, 1]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 4
  | .vmem => 3
  | .smem => 0
  | _ => 0

abbrev bufTy : (tb : Table) → Fin (tcTables nBuf tb) → BufTy
  | .hbm, ⟨0, _⟩ => ⟨S32x2048, .f32⟩
  | .hbm, ⟨1, _⟩ => ⟨S32x2048, .i32⟩
  | .hbm, ⟨2, _⟩ => ⟨S1x1, .f32⟩
  | .hbm, ⟨3, _⟩ => ⟨S_, .f32⟩
  | .local _ .vmem, ⟨0, _⟩ => ⟨S32x2048, .f32⟩
  | .local _ .vmem, ⟨1, _⟩ => ⟨S32x2048, .i32⟩
  | .local _ .vmem, ⟨2, _⟩ => ⟨S1x1, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S32x2048_S32x2048_0_0 : ∀ a, (![0, 0] : Fin 2 → Nat) a + S32x2048.size a ≤ S32x2048.size a
  h_S32x2048 : 0 < S32x2048.numel
  reduces_S32x2048_S32 : S32x2048.Reduces [1] S32
  shapeCasts_S32_S32x1 : S32.ShapeCasts S32x1
  natLt_1_32 : 1 < 32
  reduces_S32x1_S1 : S32x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x2048.size a ≤ S32x2048.size a
  hwx0_1 : ∀ i : grid0.Coords, EltTy.bits .i32 = 32 ∨ (Rect.block (s := S32x2048) S32x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x2048 : Shape := ⟨2, ![32, 2048]⟩
abbrev S_ : Shape := ⟨0, ![]⟩
abbrev S32x2048x1 : Shape := ⟨3, ![32, 2048, 1]⟩
abbrev S32x1x2048 : Shape := ⟨3, ![32, 1, 2048]⟩
abbrev S32x2048x2048 : Shape := ⟨3, ![32, 2048, 2048]⟩
abbrev S32 : Shape := ⟨1, ![32]⟩

abbrev nBuf : Space → Nat
  | .hbm => 32
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x2048, .i32⟩
  | .hbm, ⟨2, _⟩ => ⟨S_, .i32⟩
  | .hbm, ⟨3, _⟩ => ⟨S32x2048, .i32⟩
  | .hbm, ⟨4, _⟩ => ⟨S32x2048, .i1⟩
  | .hbm, ⟨5, _⟩ => ⟨S32x2048, .i1⟩
  | .hbm, ⟨6, _⟩ => ⟨S32x2048x1, .i1⟩
  | .hbm, ⟨7, _⟩ => ⟨S32x1x2048, .i1⟩
  | .hbm, ⟨8, _⟩ => ⟨S32x2048x2048, .i1⟩
  | .hbm, ⟨9, _⟩ => ⟨S32x2048x2048, .i1⟩
  | .hbm, ⟨10, _⟩ => ⟨S32x2048x2048, .i1⟩
  | .hbm, ⟨11, _⟩ => ⟨S32x1x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S_, .f32⟩
  | .hbm, ⟨18, _⟩ => ⟨S32x2048x2048, .f32⟩
  | .hbm, ⟨19, _⟩ => ⟨S32x2048x2048, .f32⟩
  | .hbm, ⟨20, _⟩ => ⟨S_, .f32⟩
  | .hbm, ⟨21, _⟩ => ⟨S32, .f32⟩
  | .hbm, ⟨22, _⟩ => ⟨S32x2048x2048, .i32⟩
  | .hbm, ⟨23, _⟩ => ⟨S_, .i32⟩
  | .hbm, ⟨24, _⟩ => ⟨S32, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_call0_v0 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S32_d1_2 : S32x2048x2048.ReducesTo [1, 2] S32
  h_S_ : 0 < S_.numel
  natLt_1_32 : 1 < 32
  bcast_S_S32 : S_.BroadcastsInDim S32 (![] : Fin 0 → Fin S32.rank)
  reducesTo_S32_S_d0 : S32.ReducesTo [0] S_

variable [Facts₀]

class Facts : Prop extends Facts₀ where

variable [Facts]
-- ==== Proof.Algebra.lean ====
/-
  The arithmetic behind the BP-MLL ranking loss, free of any program: sums of extended reals whose terms are
  real numbers, the factorization of the pairwise exponential sum of one row into a product of two row sums,
  the same factorization for the count of (positive, negative) label pairs, and a scale factor carried through
  a finite sum of extended reals.
-/
import Idealize.ShloMosaic.PureOps.Ideal
import Idealize.ShloMosaic.PureOps.Reduce
import Idealize.ShloMosaic.Lib.ValueIdx

noncomputable section

open scoped BigOperators

namespace Cert.RankLoss

open Idealize.ShloMosaic

/-! ## Sums of real numbers inside the extended reals -/

/-- The coercion of a finite sum of real numbers is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor passes through a finite sum of extended reals, whatever the terms are: multiplying
    by it keeps `⊥` and `⊤` where they are, and `⊤ + ⊥ = ⊥` on both sides. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-! ## One-bit words -/

/-- A select between a real number and zero on a one-bit word is a real number. -/
theorem select_coe (c : BitVec 1) (a : ℝ) :
    Scalar.select c (a : EReal) (0 : EReal) = ((if c = 1#1 then a else 0 : ℝ) : EReal) := by
  show (if c = 1#1 then (a : EReal) else 0) = _
  by_cases h : c = 1#1
  · rw [if_pos h, if_pos h]
  · rw [if_neg h, if_neg h]; exact EReal.coe_zero.symm

/-- The one-bit conjunction is `1` exactly when both words are. -/
theorem andi_eq_one_iff (u v : BitVec 1) : IntOp.andi u v = 1#1 ↔ u = 1#1 ∧ v = 1#1 := by
  revert u v; decide

/-- A one-bit word widened to 32 bits and read as a signed integer is the bit. -/
theorem toInt_setWidth (u : BitVec 1) : ((u.setWidth 32).toInt : ℤ) = (u.toNat : ℤ) := by
  revert u; decide

/-- A one-bit word widened to 32 bits is the 32-bit word of its bit. -/
theorem setWidth_eq_ofNat (u : BitVec 1) : u.setWidth 32 = BitVec.ofNat 32 u.toNat := by
  revert u; decide

/-- The bit of a conjunction is the product of the bits. -/
theorem toNat_andi (u v : BitVec 1) : (IntOp.andi u v).toNat = u.toNat * v.toNat := by
  revert u v; decide

/-- Flipping a one-bit word with the constant `1` is its complement. -/
theorem xori_one (u : BitVec 1) : IntOp.xori u 1#1 = ~~~u := by
  revert u; decide

/-! ## The pairwise exponential sum of one row factorizes -/

/-- For real scores `x`, the sum over all pairs `(p, q)` with `p` marked by `u` and `q` marked by `v` of
    `exp (x q - x p)` is the product of the sum over marked `p` of `exp (0 - x p)` and the sum over marked `q`
    of `exp (x q)`: `exp (x q - x p) = exp (-x p) · exp (x q)`, and a double sum of products of a function of
    `p` and a function of `q` is the product of the two sums. -/
theorem pair_sum_factor {ι κ : Type*} [Fintype ι] [Fintype κ] (u : ι → BitVec 1) (v : κ → BitVec 1)
    (x : ι → ℝ) (y : κ → ℝ) :
    ∑ p : ι, ∑ q : κ, Scalar.select (IntOp.andi (u p) (v q)) ((Real.exp (y q - x p) : ℝ) : EReal) (0 : EReal)
      = (∑ p : ι, Scalar.select (u p) ((Real.exp (0 - x p) : ℝ) : EReal) (0 : EReal))
        * (∑ q : κ, Scalar.select (v q) ((Real.exp (y q) : ℝ) : EReal) (0 : EReal)) := by
  simp only [select_coe, ← coe_sum, ← EReal.coe_mul]
  congr 1
  rw [Finset.sum_mul_sum]
  refine Finset.sum_congr rfl fun p _ => Finset.sum_congr rfl fun q _ => ?_
  by_cases hu : u p = 1#1 <;> by_cases hv : v q = 1#1
  · rw [if_pos ((andi_eq_one_iff _ _).2 ⟨hu, hv⟩), if_pos hu, if_pos hv, ← Real.exp_add]
    congr 1; ring
  · rw [if_neg (fun h => hv ((andi_eq_one_iff _ _).1 h).2), if_neg hv, mul_zero]
  · rw [if_neg (fun h => hu ((andi_eq_one_iff _ _).1 h).1), if_neg hu, zero_mul]
  · rw [if_neg (fun h => hu ((andi_eq_one_iff _ _).1 h).1), if_neg hu, zero_mul]

/-! ## The count of (positive, negative) pairs of one row factorizes -/

/-- The number of pairs `(p, q)` with `p` marked by `u` and `q` marked by `v` is the product of the two counts. -/
theorem pair_count_factor {ι κ : Type*} [Fintype ι] [Fintype κ] (u : ι → BitVec 1) (v : κ → BitVec 1) :
    ∑ p : ι, ∑ q : κ, (IntOp.andi (u p) (v q)).toNat = (∑ p : ι, (u p).toNat) * (∑ q : κ, (v q).toNat) := by
  rw [Finset.sum_mul_sum]
  exact Finset.sum_congr rfl fun p _ => Finset.sum_congr rfl fun q _ => toNat_andi _ _

/-- A bit is at most one, so a sum of bits is at most the number of terms. -/
theorem sum_toNat_le {ι : Type*} [Fintype ι] (u : ι → BitVec 1) : ∑ p : ι, (u p).toNat ≤ Fintype.card ι := by
  calc ∑ p : ι, (u p).toNat ≤ ∑ _p : ι, 1 := Finset.sum_le_sum fun p _ => by
        have := (u p).isLt; omega
    _ = Fintype.card ι := by simp

/-- Adding up, in 32-bit words from zero, one-bit words widened to 32 bits gives the 32-bit word of the number
    of ones met. -/
theorem fold_addi_setWidth {ι : Type*} [DecidableEq ι] (s : Finset ι) (g : ι → BitVec 1) :
    s.fold IntOp.addi 0#32 (fun i => (g i).setWidth 32) = BitVec.ofNat 32 (∑ i ∈ s, (g i).toNat) := by
  induction s using Finset.induction_on with
  | empty => simp
  | insert a s ha ih =>
    rw [Finset.fold_insert ha, Finset.sum_insert ha, ih, setWidth_eq_ofNat, BitVec.ofNat_add]
    rfl

/-- Below `2 ^ 31` the 32-bit word of a natural number, read as a signed integer, is that number. -/
theorem toInt_ofNat_of_lt (n : ℕ) (hn : n < 2 ^ 31) : ((BitVec.ofNat 32 n).toInt : ℤ) = (n : ℤ) := by
  rw [BitVec.toInt_eq_toNat_cond, BitVec.toNat_ofNat, Nat.mod_eq_of_lt (by omega)]
  rw [if_pos (by omega)]

/-- The sum over a row of the bits of `u`, each widened to 32 bits, converted to a real number and summed in the
    extended reals, is the count of ones as a real number. -/
theorem sum_sitofp_bits {ι : Type*} [Fintype ι] (u : ι → BitVec 1) :
    ∑ p : ι, ((((u p).setWidth 32).toInt : ℝ) : EReal) = (((∑ p : ι, (u p).toNat : ℕ) : ℝ) : EReal) := by
  rw [Nat.cast_sum, coe_sum]
  refine Finset.sum_congr rfl fun p _ => ?_
  rw [toInt_setWidth]; norm_cast

end Cert.RankLoss

end
-- ==== Proof.Consts.lean ====
/-
  The float constants the two programs spell, as the extended reals their bit patterns denote: the batch size
  `32.0` the reference divides by, and its reciprocal `0.03125` the kernel multiplies by, an exact dyadic.
-/
import Idealize.ShloMosaic.PureOps.Ideal

noncomputable section

namespace Cert.RankLoss

open Idealize.ShloMosaic

/-- `32.0` denotes the real `32`. -/
theorem ofBits_32 : Ideal.ofBits .f32 0x42000000#32 = ((32 : ℝ) : EReal) := by
  simp [Ideal.ofBits, Ideal.ieee, -EReal.coe_mul]; norm_num

/-- `0.03125` denotes the real `1/32`, exactly. -/
theorem ofBits_inv32 : Ideal.ofBits .f32 0x3D000000#32 = ((1 / 32 : ℝ) : EReal) := by
  simp [Ideal.ofBits, Ideal.ieee, -EReal.coe_mul]; norm_num

/-- `+0.0` denotes `0`. -/
theorem ofBits_0 : Ideal.ofBits .f32 0x00000000#32 = 0 := by
  simp [Ideal.ofBits, Ideal.ieee]

end Cert.RankLoss

end
-- ==== Proof.Spec.lean ====
/-
  The BP-MLL ranking loss as one function of the score array `x` (extended reals, [32, 2048]) and the label array
  `t` (32-bit words, [32, 2048]). A label is positive when its word is `1`. For a row, with `u` the positive
  marks: the loss is the quotient of
    (the sum over positive `p` of `exp (0 - x p)`) · (the sum over negative `q` of `exp (x q)`)
  by (the number of positives) · (the number of negatives); the result is the sum of the 32 row losses times `1/32`.
  This is the form the kernel computes. The reference instead sums `exp (x q - x p)` over all (positive, negative)
  pairs and counts the pairs in 32-bit integers; for real scores the two agree (`pairs_eq`, `count_eq`), and
  the division by 32 inside the final sum is the factor `1/32` outside it (`scaled_sum`).
-/
import proofs.«180244_j27281632264919_1_alg».proof.Proof.Algebra
import proofs.«180244_j27281632264919_1_alg».proof.Proof.Consts

noncomputable section

open scoped BigOperators

namespace Cert.RankLoss

open Idealize.ShloMosaic Idealize.ShloMosaic.ValueIdx

abbrev Scores : Shape := ⟨2, ![32, 2048]⟩

/-- One row's loss from its positive marks `u` and its scores `x`. -/
def rowLoss (u : Fin 2048 → BitVec 1) (x : Fin 2048 → EReal) : EReal :=
  Ideal.div
    ((∑ p : Fin 2048, Scalar.select (u p) (Ideal.exp (0 - x p)) (0 : EReal))
      * (∑ q : Fin 2048, Scalar.select (~~~(u q)) (Ideal.exp (x q)) (0 : EReal)))
    ((∑ p : Fin 2048, ((((u p).setWidth 32).toInt : ℝ) : EReal))
      * (∑ q : Fin 2048, ((((~~~(u q)).setWidth 32).toInt : ℝ) : EReal)))

/-- The positive marks of row `b`. -/
def marks (t : Scores.Idx → BitVec 32) (b : Fin 32) : Fin 2048 → BitVec 1 :=
  fun k => IntOp.cmpi .eq (t (ix2 b k)) 1#32

/-- The scores of row `b`. -/
def row (x : Scores.Idx → EReal) (b : Fin 32) : Fin 2048 → EReal := fun k => x (ix2 b k)

/-- The loss: the mean of the row losses. -/
def meanLoss (x : Scores.Idx → EReal) (t : Scores.Idx → BitVec 32) : EReal :=
  (∑ b : Fin 32, rowLoss (marks t b) (row x b)) * ((1 / 32 : ℝ) : EReal)

/-! ## The reference's row, for real scores -/

theorem exp_coe_sub_coe (a b : ℝ) : Ideal.exp ((a : EReal) - (b : EReal)) = ((Real.exp (a - b) : ℝ) : EReal) := by
  rw [← EReal.coe_sub]; rfl

theorem exp_zero_sub_coe (a : ℝ) : Ideal.exp ((0 : EReal) - (a : EReal)) = ((Real.exp (0 - a) : ℝ) : EReal) := by
  rw [← EReal.coe_zero, ← EReal.coe_sub]; rfl

theorem exp_coe' (a : ℝ) : Ideal.exp (a : EReal) = ((Real.exp a : ℝ) : EReal) := rfl

/-- The sum of `exp (x q - x p)` over the (positive `p`, negative `q`) pairs of a row of real scores is the product
    of the two one-sided sums. -/
theorem pairs_eq (u : Fin 2048 → BitVec 1) (r : Fin 2048 → ℝ) :
    ∑ p : Fin 2048, ∑ q : Fin 2048,
        Scalar.select (IntOp.andi (u p) (~~~(u q))) (Ideal.exp ((r q : EReal) - (r p : EReal))) (0 : EReal)
      = (∑ p : Fin 2048, Scalar.select (u p) (Ideal.exp ((0 : EReal) - (r p : EReal))) (0 : EReal))
        * (∑ q : Fin 2048, Scalar.select (~~~(u q)) (Ideal.exp (r q : EReal)) (0 : EReal)) := by
  simp only [exp_coe_sub_coe, exp_zero_sub_coe, exp_coe']
  exact pair_sum_factor u (fun q => ~~~(u q)) r r

/-- The number of (positive, negative) pairs of a row, counted in 32-bit words and converted to a float, is the
    product of the two counts converted bit by bit and summed: the count is at most 2048 · 2048, below `2 ^ 31`. -/
theorem count_eq (u : Fin 2048 → BitVec 1) :
    ((((BitVec.ofNat 32 (∑ p : Fin 2048, ∑ q : Fin 2048, (IntOp.andi (u p) (~~~(u q))).toNat)).toInt : ℤ) : ℝ) : EReal)
      = (∑ p : Fin 2048, ((((u p).setWidth 32).toInt : ℝ) : EReal))
        * (∑ q : Fin 2048, ((((~~~(u q)).setWidth 32).toInt : ℝ) : EReal)) := by
  rw [pair_count_factor u (fun q => ~~~(u q)), sum_sitofp_bits, sum_sitofp_bits, ← EReal.coe_mul]
  have h1 := sum_toNat_le u
  have h2 := sum_toNat_le (fun q => ~~~(u q))
  rw [Fintype.card_fin] at h1 h2
  rw [toInt_ofNat_of_lt _ (by
    calc (∑ p : Fin 2048, (u p).toNat) * (∑ q : Fin 2048, (~~~(u q)).toNat) ≤ 2048 * 2048 := Nat.mul_le_mul h1 h2
      _ < 2 ^ 31 := by norm_num)]
  push_cast
  rfl

/-- The reference divides each row loss by 32 and sums from zero; the kernel sums and multiplies by `1/32`. -/
theorem scaled_sum (f : Fin 32 → EReal) :
    (0 : EReal) + ∑ b : Fin 32, Ideal.div (f b) ((32 : ℝ) : EReal) = (∑ b : Fin 32, f b) * ((1 / 32 : ℝ) : EReal) := by
  rw [zero_add, sum_mul_coe _ _ _ (by norm_num)]
  exact Finset.sum_congr rfl fun b _ => Ideal.div_coe (by norm_num) _

end Cert.RankLoss

end
-- ==== Proof.Rows.lean ====
/-
  A reduction of a [32, 2048, 2048] array over its last two axes, read at a row: the operand indices that drop to
  row `b` are exactly the triples `(b, p, q)`, so a sum over them is the double sum over `p` and `q`.
-/
import Idealize.ShloMosaic.PureOps.Ideal
import Idealize.ShloMosaic.PureOps.Reduce
import Idealize.ShloMosaic.Lib.ValueIdx

noncomputable section

open scoped BigOperators

namespace Cert.RankLoss

open Idealize.ShloMosaic Idealize.ShloMosaic.ValueIdx

abbrev Cube : Shape := ⟨3, ![32, 2048, 2048]⟩
abbrev Rows : Shape := ⟨1, ![32]⟩

theorem size_1 : Cube.size 1 = 2048 := by decide
theorem size_2 : Cube.size 2 = 2048 := by decide

/-- The row of a triple: dropping the last two coordinates keeps the first. -/
theorem drop_rows_val (h : Cube.ReducesTo [1, 2] Rows) (i : Cube.Idx) : ((h.drop i) 0 : Nat) = (i 0 : Nat) :=
  Shape.ReducesTo.drop_apply_val_of_eq h i 0 0

/-- A triple drops to row `b` iff its first coordinate is `b`. -/
theorem drop_rows_eq_iff (h : Cube.ReducesTo [1, 2] Rows) (i : Cube.Idx) (b : Fin 32) :
    h.drop i = ix1 b ↔ (i 0 : Nat) = b.val := by
  constructor
  · intro e
    have := drop_rows_val h i
    rw [e] at this
    exact this.symm
  · intro e
    funext d
    match d with
    | ⟨0, _⟩ => exact Fin.ext ((drop_rows_val h i).trans e)

/-- The sum over the triples of row `b` is the double sum over the last two coordinates. -/
theorem sum_filter_drop_rows {α : Type*} [AddCommMonoid α] (h : Cube.ReducesTo [1, 2] Rows) (x : Cube.Idx → α) (b : Fin 32) :
    ∑ i ∈ Finset.univ.filter (fun i => h.drop i = ix1 b), x i
      = ∑ p : Fin 2048, ∑ q : Fin 2048, x (ix3 (n0 := 32) (n1 := 2048) (n2 := 2048) b p q) := by
  rw [← Finset.sum_product' (Finset.univ : Finset (Fin 2048)) (Finset.univ : Finset (Fin 2048))
    (fun p q => x (ix3 (n0 := 32) (n1 := 2048) (n2 := 2048) b p q))]
  refine Finset.sum_nbij' (fun i => (Fin.cast size_1 (i 1), Fin.cast size_2 (i 2)))
    (fun pq => ix3 (n0 := 32) (n1 := 2048) (n2 := 2048) b pq.1 pq.2) ?_ ?_ ?_ ?_ ?_
  · intro i _
    rw [Finset.mem_product]
    exact ⟨Finset.mem_univ _, Finset.mem_univ _⟩
  · intro pq _
    exact Finset.mem_filter.2 ⟨Finset.mem_univ _, (drop_rows_eq_iff h _ b).2 rfl⟩
  · intro i hi
    have e := (drop_rows_eq_iff h i b).1 (Finset.mem_filter.1 hi).2
    funext d
    match d with
    | ⟨0, _⟩ => exact Fin.ext e.symm
    | ⟨1, _⟩ => exact Fin.ext rfl
    | ⟨2, _⟩ => exact Fin.ext rfl
  · intro pq _; rfl
  · intro i hi
    have e := (drop_rows_eq_iff h i b).1 (Finset.mem_filter.1 hi).2
    congr 1
    funext d
    match d with
    | ⟨0, _⟩ => exact Fin.ext e
    | ⟨1, _⟩ => exact Fin.ext rfl
    | ⟨2, _⟩ => exact Fin.ext rfl

/-- The host's float sum over the last two axes, at row `b`: the initial value plus the double sum. -/
theorem hostReduceAdd_rows (h : Cube.ReducesTo [1, 2] Rows) (x : Cube.Idx → EReal) (init : EReal) (b : Fin 32) :
    Ideal.hostReduceAdd h x init (ix1 b)
      = init + ∑ p : Fin 2048, ∑ q : Fin 2048, x (ix3 (n0 := 32) (n1 := 2048) (n2 := 2048) b p q) := by
  unfold Ideal.hostReduceAdd
  rw [sum_filter_drop_rows]

/-- A sum over the indices of a rank-1 array is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

end Cert.RankLoss

end
-- ==== Proof.Lanes.lean ====
/-
  The kernel's layout steps read at an index, over the literal shapes of this kernel: a lane sum of a [32, 2048]
  array at row `b` is the sum over the 2048 columns; a sublane sum of a [32, 1] column is the sum over the 32 rows;
  the casts [32] → [32, 1] and [1] → [1, 1] keep the row-major position.
-/
import proofs.«180244_j27281632264919_1_alg».proof.Proof.Spec
import proofs.«180244_j27281632264919_1_alg».proof.Proof.Rows
import Idealize.ShloMosaic.PureOps.Ideal.Laws
import Idealize.ShloMosaic.Lib.Pipeline.Value

noncomputable section

open scoped BigOperators

namespace Cert.RankLoss

open Idealize.ShloMosaic Idealize.ShloMosaic.ValueIdx

abbrev Col : Shape := ⟨2, ![32, 1]⟩
abbrev One : Shape := ⟨1, ![1]⟩
abbrev OneOne : Shape := ⟨2, ![1, 1]⟩

/-- The lane sum of a [32, 2048] array, at row `b`. -/
theorem rowSum_apply (h : Scores.Reduces [1] Rows) (hφ : FKind.Formats .f32) (acc : BitVec 32)
    (hacc : acc = FKind.add.neutral .f32 hφ) (v : FVec Ideal Scores .f32) (b : Fin 32) :
    multiReduction .add [1] Rows v acc h hφ hacc (ix1 b) = ∑ k : Fin 2048, v (ix2 b k) := by
  rw [Ideal.multiReduction_add_single]
  refine Fintype.sum_equiv (finCongr (by decide : Scores.size 1 = 2048)) _ _ fun k => ?_
  refine congrArg v (funext fun d => ?_)
  match d with
  | ⟨0, _⟩ => exact Fin.ext rfl
  | ⟨1, _⟩ => exact Fin.ext rfl

/-- The sublane sum of a [32, 1] column, at its one index. -/
theorem colSum_apply (h : Col.Reduces [0] One) (hφ : FKind.Formats .f32) (acc : BitVec 32)
    (hacc : acc = FKind.add.neutral .f32 hφ) (v : FVec Ideal Col .f32) (j : One.Idx) :
    multiReduction .add [0] One v acc h hφ hacc j = ∑ b : Fin 32, v (ix2 b (0 : Fin 1)) := by
  rw [Ideal.multiReduction_add_single]
  refine Fintype.sum_equiv (finCongr (by decide : Col.size 0 = 32)) _ _ fun k => ?_
  refine congrArg v (funext fun d => ?_)
  have hj : (j 0).val < 1 := (j 0).isLt
  match d with
  | ⟨0, _⟩ => exact Fin.ext rfl
  | ⟨1, _⟩ => exact Fin.ext (by show (j 0).val = 0; omega)

/-- The cast [32] → [32, 1] at `(b, c)` reads row `b`. -/
theorem castCol_apply {α : Type} (v : Rows.Idx → α) (h : Rows.ShapeCasts Col) (b : Fin 32) (c : Fin 1) :
    shapeCast Col v h (ix2 b c) = v (ix1 b) :=
  shapeCast_apply v h _ _ (by
    rw [Shape.rowMajor_val_two, Shape.rowMajor_val_one]
    show b.val = b.val * 1 + c.val
    omega)

/-- The cast [1] → [1, 1] reads the one element. -/
theorem castOne_apply {α : Type} (v : One.Idx → α) (h : One.ShapeCasts OneOne) (a c : Fin 1) :
    shapeCast OneOne v h (ix2 a c) = v (ix1 (0 : Fin 1)) :=
  shapeCast_apply v h _ _ (by
    rw [Shape.rowMajor_val_two, Shape.rowMajor_val_one]
    show (0 : Nat) = a.val * 1 + c.val
    omega)

end Cert.RankLoss

end
-- ==== Proof.KernelValue.lean ====
/-
  The idealized kernel's result is the mean ranking loss of its arguments: the one grid point stores, through the
  whole [1, 1] block, the body's value of the two whole input blocks, which is the loss; the reshape after the
  call hands it on as a scalar.
-/
import proofs.«180244_j27281632264919_1_alg».proof.Proof.Gen.KernelIdeal.Frame
import proofs.«180244_j27281632264919_1_alg».proof.Proof.Spec
import proofs.«180244_j27281632264919_1_alg».proof.Proof.Rows
import proofs.«180244_j27281632264919_1_alg».proof.Proof.Lanes
import Idealize.ShloMosaic.Lib.Pipeline.Value
import Idealize.ShloMosaic.Lib.StableHlo.Run

set_option maxRecDepth 16384

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.RankLoss
open Idealize.ShloMosaic.Pipeline (Dat)

/-! ## The layout steps at this program's own shapes -/

theorem rowSum (v : FVec Ideal S32x2048 .f32) (b : Fin 32) :
    multiReduction .add [1] S32 v 0x00000000#32 reduces_S32x2048_S32 (.inl rfl) rfl (ix1 b) = ∑ k : Fin 2048, v (ix2 b k) :=
  rowSum_apply reduces_S32x2048_S32 (.inl rfl) 0x00000000#32 rfl v b

theorem colSum (v : FVec Ideal S32x1 .f32) (j : S1.Idx) :
    multiReduction .add [0] S1 v 0x00000000#32 reduces_S32x1_S1 (.inl rfl) rfl j = ∑ b : Fin 32, v (ix2 b (0 : Fin 1)) :=
  colSum_apply reduces_S32x1_S1 (.inl rfl) 0x00000000#32 rfl v j

theorem castCol {α : Type} (v : S32.Idx → α) (b : Fin 32) (c : Fin 1) :
    shapeCast S32x1 v shapeCasts_S32_S32x1 (ix2 b c) = v (ix1 b) :=
  castCol_apply v shapeCasts_S32_S32x1 b c

theorem castOne {α : Type} (v : S1.Idx → α) (a c : Fin 1) :
    shapeCast S1x1 v shapeCasts_S1_S1x1 (ix2 a c) = v (ix1 (0 : Fin 1)) :=
  castOne_apply v shapeCasts_S1_S1x1 a c

/-- The body's value of two whole blocks is the mean ranking loss, at its one index. -/
theorem pay_eq (x : Vec Ideal S32x2048 .f32) (t : Vec Ideal S32x2048 .i32) :
    k0_pay1 (F := Ideal) x t = fun _ => meanLoss x t := by
  funext i
  obtain ⟨a, c, rfl⟩ : ∃ (a : Fin 1) (c : Fin 1), i = ix2 a c := ⟨i 0, i 1, eq_ix2 i⟩
  unfold k0_pay1
  rw [mulf_apply, castOne, colSum, broadcast_apply]
  unfold meanLoss
  refine congrArg₂ (· * ·) (Finset.sum_congr rfl fun b _ => ?_) ofBits_inv32
  rw [divf_apply, mulf_apply, mulf_apply, castCol, castCol, castCol, castCol, rowSum, rowSum, rowSum, rowSum]
  unfold rowLoss marks row
  simp only [select_apply, sitofp_apply, extui_apply, broadcast_apply]
  have hc : ∀ k : Fin 2048, cmpi .eq t (broadcast S32x2048 1#32) (ix2 b k) = IntOp.cmpi .eq (t (ix2 b k)) 1#32 :=
    fun _ => rfl
  have hx : ∀ k : Fin 2048, xori (cmpi .eq t (broadcast S32x2048 1#32)) (constantI S32x2048 1 1#1) (ix2 b k)
      = ~~~(IntOp.cmpi .eq (t (ix2 b k)) 1#32) := fun _ => xori_one _
  have he : ∀ k : Fin 2048, exp (F := Ideal) (φ := .f32) (subf (broadcast S32x2048 (FloatOps.ofBits (F := Ideal) .f32 0#32)) x) (ix2 b k)
      = Ideal.exp (0 - x (ix2 b k)) := fun k => by
    show Ideal.exp (Ideal.ofBits .f32 0#32 - x (ix2 b k)) = _
    rw [ofBits_0]
  have he' : ∀ k : Fin 2048, exp (F := Ideal) (φ := .f32) x (ix2 b k) = Ideal.exp (x (ix2 b k)) := fun _ => rfl
  simp only [hc, hx, he, he', Ideal.ofBits_def, ofBits_0]
  rfl

variable (m : (ℓ : Loc nD τ sig) → Buf (Elt Ideal) ℓ) (ρ : Dev nD → PrngReg)

theorem hz : (![0, 0] : Fin 2 → Nat) = fun _ => 0 := funext fun a => by fin_cases a <;> rfl

/-- The one grid point's blocks start at the arrays' origin. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The score block of the one point is the whole score array. -/
theorem blk0_eq (c : Dev nD) (t : Fin cfg0.N) : (iblk m c 0 t : S32x2048.Idx → EReal) = V m c main_arg0 := by
  obtain ⟨e0, e1, -, -, -, -⟩ := idx_facts t
  funext j
  show V m c main_arg0 (((cfg0.win 0).blk t).view.emb j) = V m c main_arg0 j
  refine congrArg _ (funext fun a => Fin.ext ?_)
  match a with
  | ⟨0, _⟩ => show win0_0.index t (0 : Fin 2) * 32 + 1 * (j 0).val = (j 0).val; omega
  | ⟨1, _⟩ => show win0_0.index t (1 : Fin 2) * 2048 + 1 * (j 1).val = (j 1).val; omega

/-- The label block of the one point is the whole label array. -/
theorem blk1_eq (c : Dev nD) (t : Fin cfg0.N) : (iblk m c 1 t : S32x2048.Idx → BitVec 32) = V m c main_arg1 := by
  obtain ⟨-, -, e0, e1, -, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 32 + 1 * (j 0).val = (j 0).val; omega
  | ⟨1, _⟩ => show win0_1.index t (1 : Fin 2) * 2048 + 1 * (j 1).val = (j 1).val; omega

/-- What the one point writes back is the loss of the argument arrays, read through its block. -/
theorem flushed_eq (c : Dev nD) (t : Fin cfg0.N) :
    (dats m 0 c).flushed 2 t
      = ((cfg0.win 2).blk t).view.read (Elt Ideal) (fun _ => meanLoss (V m c main_arg0) (V m c main_arg1)) := by
  show (cfg0.win 2).cut (grid0.coords t) ((dats m 0 c).after 2 t) = _
  rw [after0_2]
  unfold out0_2
  rw [View.canon_unit_zero hz]
  simp only [View.ld_unit_zero (S := S32x2048) hz]
  rw [pay_eq, blk0_eq, blk1_eq]
  rfl

/-- An index of the result array is in the one point's block iff each coordinate is in the block's range. -/
theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_v0).slice (win0_2.rect t)).set ↔ _
  rw [View.set_slice_whole, Rect.mem_set_unit]
  exact Iff.rfl

/-- The one point's block is the whole [1, 1] result array. -/
theorem cover (i : S1x1.Idx) : ∃ t : Fin cfg0.N, (cfg0.win 2).flush t = true ∧ i ∈ ((cfg0.win 2).blk t).view.set := by
  obtain ⟨-, -, -, -, e0, e1⟩ := idx_facts t0_0
  refine ⟨t0_0, flush0_2 _, ?_⟩
  rw [mem_blk]
  intro a
  have h0 : (i 0).val < 1 := (i 0).isLt
  have h1 : (i 1).val < 1 := (i 1).isLt
  match a with
  | ⟨0, _⟩ => show win0_2.index t0_0 (0 : Fin 2) * 1 ≤ (i 0).val ∧ (i 0).val < win0_2.index t0_0 (0 : Fin 2) * 1 + 1; omega
  | ⟨1, _⟩ => show win0_2.index t0_0 (1 : Fin 2) * 1 ≤ (i 1).val ∧ (i 1).val < win0_2.index t0_0 (1 : Fin 2) * 1 + 1; omega

/-- The [1, 1] result array after the run holds the loss of the arguments as launched. -/
theorem final (c : Dev nD) :
    (dats m 0 c).arrAt 2 cfg0.N
      = fun _ => meanLoss (m ((c : Thread nD τ).loc main_arg0)) (m ((c : Thread nD τ).loc main_arg1)) :=
  (dats m 0 c).arrAt_eq_of_cover 2 _ (fun t _ => flushed_eq m c t) (cover)

/-- The reshape after the call hands the one element on. -/
theorem tail_eq (c : Dev nD) :
    Pipeline.afterTail₀ cfgs (dats m) 0 (V0 m) [hostOps1] c main_v1
      = fun _ => meanLoss (m ((c : Thread nD τ).loc main_arg0)) (m ((c : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0)
        = fun _ => meanLoss (m ((c : Thread nD τ).loc main_arg0)) (m ((c : Thread nD τ).loc main_arg1)) :=
    (Pipeline.withArrays_arr spec0 launch0.win.arr_inj c _ _ 2).trans (final m c)
  rw [e]
  rfl

/-- The kernel's run: the result is the loss of the arguments, and the arguments are unchanged. -/
theorem run : θ_run defs (onTc (τ := τ) (main (F := Ideal))) ⟨m, fun _ => 0, ρ⟩ fun r => ∀ c : Dev nD,
      r.2.mem ((c.tc : Thread nD τ).loc main_v1)
        = (fun _ => meanLoss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result, read one operation at a time, is the mean ranking loss of its arguments when the scores
  are real numbers: at row `b` the masked array it sums over its last two axes holds, at `(p, q)`,
  `exp (x[b,q] - x[b,p])` where label `(b,p)` is positive and label `(b,q)` is not, else zero; the integer array
  it counts holds the same mask widened to 32 bits.
-/
import proofs.«180244_j27281632264919_1_alg».proof.Proof.Gen.ReferenceIdeal.Read
import proofs.«180244_j27281632264919_1_alg».proof.Proof.Spec
import proofs.«180244_j27281632264919_1_alg».proof.Proof.Rows
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic
open Idealize.ShloMosaic.ValueIdx Cert.RankLoss

/-! ## Where each broadcast reads its operand -/

theorem idx_pos (b : Fin 32) (p q : Fin 2048) :
    idx_main_v3 (idx_main_v5 (ix3 (n0 := 32) (n1 := 2048) (n2 := 2048) b p q)) = ix2 b p :=
  funext fun a => match a with | ⟨0, _⟩ => rfl | ⟨1, _⟩ => rfl

theorem idx_neg (b : Fin 32) (p q : Fin 2048) :
    idx_main_v4 (idx_main_v6 (ix3 (n0 := 32) (n1 := 2048) (n2 := 2048) b p q)) = ix2 b q :=
  funext fun a => match a with | ⟨0, _⟩ => rfl | ⟨1, _⟩ => rfl

theorem idx_xq (b : Fin 32) (p q : Fin 2048) :
    idx_main_v8 (idx_main_v10 (ix3 (n0 := 32) (n1 := 2048) (n2 := 2048) b p q)) = ix2 b q :=
  funext fun a => match a with | ⟨0, _⟩ => rfl | ⟨1, _⟩ => rfl

theorem idx_xp (b : Fin 32) (p q : Fin 2048) :
    idx_main_v9 (idx_main_v11 (ix3 (n0 := 32) (n1 := 2048) (n2 := 2048) b p q)) = ix2 b p :=
  funext fun a => match a with | ⟨0, _⟩ => rfl | ⟨1, _⟩ => rfl

/-! ## The pair mask and the masked exponential at `(b, p, q)` -/

/-- The pair mask at `(b, p, q)`: label `(b, p)` positive and label `(b, q)` not. -/
theorem mask_apply (t : (⟨S32x2048, .i32⟩ : BufTy).Contents (Elt Ideal)) (b : Fin 32) (p q : Fin 2048) :
    val_main_v7 (F := Ideal) t (ix3 (n0 := 32) (n1 := 2048) (n2 := 2048) b p q)
      = IntOp.andi (marks t b p) (~~~(marks t b q)) := by
  rw [val_main_v7_apply, val_main_v5_apply, val_main_v3_apply, val_main_v6_apply, val_main_v4_apply, val_main_v2_apply,
    idx_pos, idx_neg, val_main_v1_apply, val_main_v1_apply, val_main_v0_apply, val_main_v0_apply, val_main_c_apply]
  rfl

/-- The masked exponential at `(b, p, q)`. -/
theorem term_apply (x : (⟨S32x2048, .f32⟩ : BufTy).Contents (Elt Ideal)) (t : (⟨S32x2048, .i32⟩ : BufTy).Contents (Elt Ideal))
    (b : Fin 32) (p q : Fin 2048) :
    val_main_v14 (F := Ideal) x t (ix3 (n0 := 32) (n1 := 2048) (n2 := 2048) b p q)
      = Scalar.select (IntOp.andi (marks t b p) (~~~(marks t b q))) (Ideal.exp (x (ix2 b q) - x (ix2 b p))) (0 : EReal) := by
  rw [val_main_v14_apply, mask_apply, val_main_v13_apply, val_main_v12_apply, val_main_v10_apply, val_main_v8_apply,
    val_main_v11_apply, val_main_v9_apply, idx_xq, idx_xp, val_main_call0_v0_apply, val_main_cst_apply]
  simp only [Ideal.hostUnary_exp_def, Ideal.subf_def, Ideal.ofBits_def, ofBits_0]

/-! ## The two reductions over the last two axes, at row `b` -/

/-- The pairwise exponential sum of row `b`, for real scores: the product of the two one-sided sums. -/
theorem pairSum_apply (r : S32x2048.Idx → ℝ) (t : (⟨S32x2048, .i32⟩ : BufTy).Contents (Elt Ideal)) (b : Fin 32) :
    val_main_v15 (F := Ideal) (fun i => ((r i : ℝ) : EReal)) t (ix1 b)
      = (∑ p : Fin 2048, Scalar.select (marks t b p) (Ideal.exp ((0 : EReal) - row (fun i => ((r i : ℝ) : EReal)) b p)) (0 : EReal))
        * (∑ q : Fin 2048, Scalar.select (~~~(marks t b q)) (Ideal.exp (row (fun i => ((r i : ℝ) : EReal)) b q)) (0 : EReal)) := by
  unfold val_main_v15
  simp only [Host.reduceAdd, Ideal.hostReduceAdd_def]
  rw [hostReduceAdd_rows]
  simp only [term_apply]
  rw [val_main_cst_0_apply, Ideal.ofBits_def, ofBits_0, zero_add]
  exact pairs_eq (marks t b) (fun k => r (ix2 b k))

/-- The pair count of row `b`, converted to a float: the product of the two label counts. -/
theorem count_apply (t : (⟨S32x2048, .i32⟩ : BufTy).Contents (Elt Ideal)) (b : Fin 32) :
    val_main_v18 (F := Ideal) t (ix1 b)
      = (∑ p : Fin 2048, (((((marks t b p)).setWidth 32).toInt : ℝ) : EReal))
        * (∑ q : Fin 2048, ((((~~~(marks t b q)).setWidth 32).toInt : ℝ) : EReal)) := by
  rw [val_main_v18_apply]
  unfold val_main_v17
  rw [Host.reduce_eq_fold]
  have e : (val_main_v16 (F := Ideal) t) = fun i => (val_main_v7 (F := Ideal) t i).setWidth 32 := rfl
  rw [e, val_main_c_1_apply, fold_addi_setWidth, sum_filter_drop_rows]
  simp only [mask_apply]
  exact count_eq (marks t b)

/-! ## The result -/

/-- For real scores the reference's result is the mean ranking loss. -/
theorem ref_eq (r : S32x2048.Idx → ℝ) (t : (⟨S32x2048, .i32⟩ : BufTy).Contents (Elt Ideal)) :
    val_main_v22 (F := Ideal) (fun i => ((r i : ℝ) : EReal)) t = fun _ => meanLoss (fun i => ((r i : ℝ) : EReal)) t := by
  funext i
  rw [val_main_v22_apply, val_main_cst_3_apply, sum_idx1]
  have hrow : ∀ a : Fin 32, val_main_v21 (F := Ideal) (fun i => ((r i : ℝ) : EReal)) t (ix1 a)
      = Ideal.div (rowLoss (marks t a) (row (fun i => ((r i : ℝ) : EReal)) a)) ((32 : ℝ) : EReal) := by
    intro a
    rw [val_main_v21_apply, val_main_v19_apply, val_main_v20_apply, val_main_cst_2_apply, pairSum_apply, count_apply]
    simp only [Ideal.hostDivf_def, Ideal.ofBits_def, ofBits_32]
    rfl
  simp only [hrow]
  rw [Ideal.ofBits_def, ofBits_0]
  exact scaled_sum _

end Cert.ReferenceIdeal.RefValue

end
-- ==== Proof.Finite.lean ====
/-
  What the precondition says of the scores: every entry of the float input is a real number. The predicate is the
  conjunction over all entries of `|x| < +∞`; an extended real whose absolute value is below `⊤` is neither `⊤`
  nor `⊥`.
-/
import proofs.«180244_j27281632264919_1_alg».proof.Pre_finite_inputs
import Idealize.ShloMosaic.PureOps.Ideal
import Idealize.ShloMosaic.Lib.ReduceAll
import Idealize.ShloMosaic.Lib.ValueIdx

noncomputable section

namespace Cert.RankLoss

open Idealize.ShloMosaic

/-- The pattern of `+inf` denotes `⊤`. -/
theorem ofBits_inf : Ideal.ofBits .f32 0x7F800000#32 = ⊤ := by
  simp [Ideal.ofBits, Ideal.ieee]

/-- An extended real whose absolute value is below `⊤` is a real number. -/
theorem real_of_abs_lt_top (a : EReal) (h : max a (-a) < ⊤) : ∃ r : ℝ, a = (r : EReal) := by
  induction a using EReal.rec with
  | bot => simp at h
  | top => simp at h
  | coe r => exact ⟨r, rfl⟩

/-- Under the precondition every score is a real number. -/
theorem real_of_pre [Cert.Pre_finite_inputs.Facts] (x : FVec Ideal Cert.Pre_finite_inputs.S32x2048 .f32)
    (t : IVec Cert.Pre_finite_inputs.S32x2048 32)
    (h : Cert.Pre_finite_inputs.fn (F := Ideal) x t = fun _ => 1#1) (i : Cert.Pre_finite_inputs.S32x2048.Idx) :
    ∃ r : ℝ, x i = (r : EReal) := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  change Ideal.cmp .olt (max (x i) (-(x i))) (Ideal.ofBits .f32 0x7F800000#32) = 1#1 at hi
  rw [ofBits_inf] at hi
  refine real_of_abs_lt_top _ ?_
  by_contra hn
  simp [Ideal.cmp, hn] at hi

end Cert.RankLoss

end
-- ==== Proof.lean ====
/-
  The BP-MLL ranking loss, kernel against reference, over the extended reals.

  Both programs take scores `x : f32[32, 2048]` and labels `t : i32[32, 2048]`; a label is positive when it is `1`.
  The reference sums, for each row, `exp (x[q] - x[p])` over all pairs of a positive `p` and a non-positive `q`,
  divides by the number of such pairs (counted in 32-bit integers, then converted), divides by 32 and sums the rows.
  The kernel computes per row the sum of `exp (0 - x[p])` over the positives and of `exp (x[q])` over the others,
  multiplies them, divides by the product of the two label counts, sums the rows and multiplies by `0.03125`.

  For real scores `exp (x[q] - x[p]) = exp (-x[p]) · exp (x[q])` and the double sum of products is the product of the
  sums; the pair count is the product of the counts (at most 2048², far below 2³¹, so the integer sum does not wrap);
  `0.03125` is exactly `1/32`, and a nonnegative real factor passes through a finite sum of extended reals whatever
  its terms, so a row whose quotient is `0 / 0` (all labels positive, or none) contributes the same value to both.
  That the scores are real is what the precondition gives.

  The two frames of the kernel are the generated ones; the reference's frame is its generated run with the result
  dropped; no operation was rewritten by the idealization, so nothing is owed for it.
-/
import proofs.«180244_j27281632264919_1_alg».proof.Defs
import proofs.«180244_j27281632264919_1_alg».proof.Proof.Gen.Kernel
import proofs.«180244_j27281632264919_1_alg».proof.Proof.Gen.Kernel.Skeleton
import proofs.«180244_j27281632264919_1_alg».proof.Proof.Gen.Kernel.Launch
import proofs.«180244_j27281632264919_1_alg».proof.Proof.Gen.Kernel.Points
import proofs.«180244_j27281632264919_1_alg».proof.Proof.Gen.Kernel.Frame
import proofs.«180244_j27281632264919_1_alg».proof.Proof.Gen.KernelIdeal
import proofs.«180244_j27281632264919_1_alg».proof.Proof.Gen.KernelIdeal.Skeleton
import proofs.«180244_j27281632264919_1_alg».proof.Proof.Gen.KernelIdeal.Launch
import proofs.«180244_j27281632264919_1_alg».proof.Proof.Gen.KernelIdeal.Points
import proofs.«180244_j27281632264919_1_alg».proof.Proof.Gen.KernelIdeal.Frame
import proofs.«180244_j27281632264919_1_alg».proof.Proof.Gen.ReferenceIdeal
import proofs.«180244_j27281632264919_1_alg».proof.Proof.Gen.Pre_finite_inputs
import proofs.«180244_j27281632264919_1_alg».proof.Proof.Gen.ReferenceIdeal.Run
import proofs.«180244_j27281632264919_1_alg».proof.Proof.Gen.ReferenceIdeal.Read
import proofs.«180244_j27281632264919_1_alg».proof.Proof.KernelValue
import proofs.«180244_j27281632264919_1_alg».proof.Proof.RefValue
import proofs.«180244_j27281632264919_1_alg».proof.Proof.Finite
import Idealize.ShloMosaic.Adequacy
import Idealize.ShloMosaic.Init

noncomputable section

namespace Cert.Proof

open Idealize.ShloMosaic Idealize.ShloMosaic.TcCoe Idealize.SL.Sem Cert.RankLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end at the mean ranking loss of the arguments: the
    kernel by its run, the reference by its run read back, the scores being real under the precondition. -/
theorem algebraic : Cert.algebraic_KernelIdeal_ReferenceIdeal := by
  intro m ρ m' ρ' hpre hagree
  refine ⟨fun c _ => meanLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v22_eq]
  obtain ⟨r, hr⟩ : ∃ r : Cert.ReferenceIdeal.S32x2048.Idx → ℝ,
      m ((c.tc : Thread Cert.KernelIdeal.nD Cert.KernelIdeal.τ).loc Cert.KernelIdeal.main_arg0) = fun i => ((r i : ℝ) : EReal) := by
    choose r hr using real_of_pre _ _ (hpre c)
    exact ⟨r, funext hr⟩
  beta_reduce
  rw [hr]
  exact Cert.ReferenceIdeal.RefValue.ref_eq r _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
